-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S4x75x512x512 : Shape := ⟨4, ![4, 75, 512, 512]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S4x75x512x512 : S_.BroadcastsInDim S4x75x512x512 (![] : Fin 0 → Fin S4x75x512x512.rank)
  reducesTo_S4x75x512x512_S_d0_1_2_3 : S4x75x512x512.ReducesTo [0, 1, 2, 3] S_

variable [Facts]

def fn {F : FTy → Type} [FloatOps F] (main_arg0 : FVec F S4x3x512x512 .f32) (main_arg1 : FVec F S4x75x512x512 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S4x75x512x512 .f32 := Host.absf main_arg1
  let main_cst_0 : FVec F S_ .f32 := constant S_ .f32 0x7F800000#32
  let main_v5 : FVec F S4x75x512x512 .f32 := broadcastInDim S4x75x512x512 ![] bcast_S_S4x75x512x512 main_cst_0
  let main_v6 : IVec S4x75x512x512 1 := cmpf .olt main_v4 main_v5
  let main_c_1 : IVec S_ 1 := constantI S_ 1 1#1
  let main_v7 : IVec S_ 1 := (fun x v => Host.reduce IntOp.andi x v reducesTo_S4x75x512x512_S_d0_1_2_3 h_S_) main_v6 main_c_1
  let main_v8 : IVec S_ 1 := andi main_v3 main_v7
  main_v8
-- ==== Kernel.lean ====
abbrev S4x3x512x512 : Shape := ⟨4, ![4, 3, 512, 512]⟩
abbrev S4x75x512x512 : Shape := ⟨4, ![4, 75, 512, 512]⟩
abbrev S_ : Shape := ⟨0, ![]⟩
abbrev S4x3x516x516 : Shape := ⟨4, ![4, 3, 516, 516]⟩
abbrev S4x1x512x512 : Shape := ⟨4, ![4, 1, 512, 512]⟩
abbrev S1x3x516x516 : Shape := ⟨4, ![1, 3, 516, 516]⟩
abbrev S1x75x64x512 : Shape := ⟨4, ![1, 75, 64, 512]⟩
abbrev S1x1x64x512 : Shape := ⟨4, ![1, 1, 64, 512]⟩
abbrev S1x3x68x516 : Shape := ⟨4, ![1, 3, 68, 516]⟩
abbrev S3x68x516 : Shape := ⟨3, ![3, 68, 516]⟩
abbrev S64x512 : Shape := ⟨2, ![64, 512]⟩
abbrev S1x64x516 : Shape := ⟨3, ![1, 64, 516]⟩
abbrev S64x516 : Shape := ⟨2, ![64, 516]⟩

abbrev nBuf : Space → Nat
  | .hbm => 6
  | .vmem => 6
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x516x516, .f32⟩
  | .hbm, ⟨5, _⟩ => ⟨S4x1x512x512, .f32⟩
  | .local _ .vmem, ⟨0, _⟩ => ⟨S1x3x516x516, .f32⟩
  | .local _ .vmem, ⟨1, _⟩ => ⟨S1x3x516x516, .f32⟩
  | .local _ .vmem, ⟨2, _⟩ => ⟨S1x75x64x512, .f32⟩
  | .local _ .vmem, ⟨3, _⟩ => ⟨S1x75x64x512, .f32⟩
  | .local _ .vmem, ⟨4, _⟩ => ⟨S1x1x64x512, .f32⟩
  | .local _ .vmem, ⟨5, _⟩ => ⟨S1x1x64x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x516x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x75x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  h_S1x3x68x516 : 0 < S1x3x68x516.numel
  shapeCasts_S1x3x68x516_S3x68x516 : S1x3x68x516.ShapeCasts S3x68x516
  slices_S3x68x516_o0_0_0_S1x64x516 : S3x68x516.Slices ![0, 0, 0] S1x64x516
  shapeCasts_S1x64x516_S64x516 : S1x64x516.ShapeCasts S64x516
  slices_S64x516_o0_0_S64x512 : S64x516.Slices ![0, 0] S64x512
  inb_S1x75x64x512_S1x1x64x512_0_0_0_0 : ∀ a, (![0, 0, 0, 0] : Fin 4 → Nat) a + S1x1x64x512.size a ≤ S1x75x64x512.size a
  h_S1x1x64x512 : 0 < S1x1x64x512.numel
  shapeCasts_S1x1x64x512_S64x512 : S1x1x64x512.ShapeCasts S64x512
  slices_S64x516_o0_1_S64x512 : S64x516.Slices ![0, 1] S64x512
  inb_S1x75x64x512_S1x1x64x512_0_1_0_0 : ∀ a, (![0, 1, 0, 0] : Fin 4 → Nat) a + S1x1x64x512.size a ≤ S1x75x64x512.size a
  slices_S64x516_o0_2_S64x512 : S64x516.Slices ![0, 2] S64x512
  inb_S1x75x64x512_S1x1x64x512_0_2_0_0 : ∀ a, (![0, 2, 0, 0] : Fin 4 → Nat) a + S1x1x64x512.size a ≤ S1x75x64x512.size a
  slices_S64x516_o0_3_S64x512 : S64x516.Slices ![0, 3] S64x512
  inb_S1x75x64x512_S1x1x64x512_0_3_0_0 : ∀ a, (![0, 3, 0, 0] : Fin 4 → Nat) a + S1x1x64x512.size a ≤ S1x75x64x512.size a
  slices_S64x516_o0_4_S64x512 : S64x516.Slices ![0, 4] S64x512
  inb_S1x75x64x512_S1x1x64x512_0_4_0_0 : ∀ a, (![0, 4, 0, 0] : Fin 4 → Nat) a + S1x1x64x512.size a ≤ S1x75x64x512.size a
  slices_S3x68x516_o0_1_0_S1x64x516 : S3x68x516.Slices ![0, 1, 0] S1x64x516
  inb_S1x75x64x512_S1x1x64x512_0_5_0_0 : ∀ a, (![0, 5, 0, 0] : Fin 4 → Nat) a + S1x1x64x512.size a ≤ S1x75x64x512.size a
  inb_S1x75x64x512_S1x1x64x512_0_6_0_0 : ∀ a, (![0, 6, 0, 0] : Fin 4 → Nat) a + S1x1x64x512.size a ≤ S1x75x64x512.size a
  inb_S1x75x64x512_S1x1x64x512_0_7_0_0 : ∀ a, (![0, 7, 0, 0] : Fin 4 → Nat) a + S1x1x64x512.size a ≤ S1x75x64x512.size a
  inb_S1x75x64x512_S1x1x64x512_0_8_0_0 : ∀ a, (![0, 8, 0, 0] : Fin 4 → Nat) a + S1x1x64x512.size a ≤ S1x75x64x512.size a
  inb_S1x75x64x512_S1x1x64x512_0_9_0_0 : ∀ a, (![0, 9, 0, 0] : Fin 4 → Nat) a + S1x1x64x512.size a ≤ S1x75x64x512.size a
  slices_S3x68x516_o0_2_0_S1x64x516 : S3x68x516.Slices ![0, 2, 0] S1x64x516
  inb_S1x75x64x512_S1x1x64x512_0_10_0_0 : ∀ a, (![0, 10, 0, 0] : Fin 4 → Nat) a + S1x1x64x512.size a ≤ S1x75x64x512.size a
  inb_S1x75x64x512_S1x1x64x512_0_11_0_0 : ∀ a, (![0, 11, 0, 0] : Fin 4 → Nat) a + S1x1x64x512.size a ≤ S1x75x64x512.size a
  inb_S1x75x64x512_S1x1x64x512_0_12_0_0 : ∀ a, (![0, 12, 0, 0] : Fin 4 → Nat) a + S1x1x64x512.size a ≤ S1x75x64x512.size a
  inb_S1x75x64x512_S1x1x64x512_0_13_0_0 : ∀ a, (![0, 13, 0, 0] : Fin 4 → Nat) a + S1x1x64x512.size a ≤ S1x75x64x512.size a
  inb_S1x75x64x512_S1x1x64x512_0_14_0_0 : ∀ a, (![0, 14, 0, 0] : Fin 4 → Nat) a + S1x1x64x512.size a ≤ S1x75x64x512.size a
  slices_S3x68x516_o0_3_0_S1x64x516 : S3x68x516.Slices ![0, 3, 0] S1x64x516
  inb_S1x75x64x512_S1x1x64x512_0_15_0_0 : ∀ a, (![0, 15, 0, 0] : Fin 4 → Nat) a + S1x1x64x512.size a ≤ S1x75x64x512.size a
  inb_S1x75x64x512_S1x1x64x512_0_16_0_0 : ∀ a, (![0, 16, 0, 0] : Fin 4 → Nat) a + S1x1x64x512.size a ≤ S1x75x64x512.size a
  inb_S1x75x64x512_S1x1x64x512_0_17_0_0 : ∀ a, (![0, 17, 0, 0] : Fin 4 → Nat) a + S1x1x64x512.size a ≤ S1x75x64x512.size a
  inb_S1x75x64x512_S1x1x64x512_0_18_0_0 : ∀ a, (![0, 18, 0, 0] : Fin 4 → Nat) a + S1x1x64x512.size a ≤ S1x75x64x512.size a
  inb_S1x75x64x512_S1x1x64x512_0_19_0_0 : ∀ a, (![0, 19, 0, 0] : Fin 4 → Nat) a + S1x1x64x512.size a ≤ S1x75x64x512.size a
  slices_S3x68x516_o0_4_0_S1x64x516 : S3x68x516.Slices ![0, 4, 0] S1x64x516
  inb_S1x75x64x512_S1x1x64x512_0_20_0_0 : ∀ a, (![0, 20, 0, 0] : Fin 4 → Nat) a + S1x1x64x512.size a ≤ S1x75x64x512.size a
  inb_S1x75x64x512_S1x1x64x512_0_21_0_0 : ∀ a, (![0, 21, 0, 0] : Fin 4 → Nat) a + S1x1x64x512.size a ≤ S1x75x64x512.size a
  inb_S1x75x64x512_S1x1x64x512_0_22_0_0 : ∀ a, (![0, 22, 0, 0] : Fin 4 → Nat) a + S1x1x64x512.size a ≤ S1x75x64x512.size a
  inb_S1x75x64x512_S1x1x64x512_0_23_0_0 : ∀ a, (![0, 23, 0, 0] : Fin 4 → Nat) a + S1x1x64x512.size a ≤ S1x75x64x512.size a
  inb_S1x75x64x512_S1x1x64x512_0_24_0_0 : ∀ a, (![0, 24, 0, 0] : Fin 4 → Nat) a + S1x1x64x512.size a ≤ S1x75x64x512.size a
  slices_S3x68x516_o1_0_0_S1x64x516 : S3x68x516.Slices ![1, 0, 0] S1x64x516
  inb_S1x75x64x512_S1x1x64x512_0_25_0_0 : ∀ a, (![0, 25, 0, 0] : Fin 4 → Nat) a + S1x1x64x512.size a ≤ S1x75x64x512.size a
  inb_S1x75x64x512_S1x1x64x512_0_26_0_0 : ∀ a, (![0, 26, 0, 0] : Fin 4 → Nat) a + S1x1x64x512.size a ≤ S1x75x64x512.size a
  inb_S1x75x64x512_S1x1x64x512_0_27_0_0 : ∀ a, (![0, 27, 0, 0] : Fin 4 → Nat) a + S1x1x64x512.size a ≤ S1x75x64x512.size a
  inb_S1x75x64x512_S1x1x64x512_0_28_0_0 : ∀ a, (![0, 28, 0, 0] : Fin 4 → Nat) a + S1x1x64x512.size a ≤ S1x75x64x512.size a
  inb_S1x75x64x512_S1x1x64x512_0_29_0_0 : ∀ a, (![0, 29, 0, 0] : Fin 4 → Nat) a + S1x1x64x512.size a ≤ S1x75x64x512.size a
  slices_S3x68x516_o1_1_0_S1x64x516 : S3x68x516.Slices ![1, 1, 0] S1x64x516
  inb_S1x75x64x512_S1x1x64x512_0_30_0_0 : ∀ a, (![0, 30, 0, 0] : Fin 4 → Nat) a + S1x1x64x512.size a ≤ S1x75x64x512.size a
  inb_S1x75x64x512_S1x1x64x512_0_31_0_0 : ∀ a, (![0, 31, 0, 0] : Fin 4 → Nat) a + S1x1x64x512.size a ≤ S1x75x64x512.size a
  inb_S1x75x64x512_S1x1x64x512_0_32_0_0 : ∀ a, (![0, 32, 0, 0] : Fin 4 → Nat) a + S1x1x64x512.size a ≤ S1x75x64x512.size a
  inb_S1x75x64x512_S1x1x64x512_0_33_0_0 : ∀ a, (![0, 33, 0, 0] : Fin 4 → Nat) a + S1x1x64x512.size a ≤ S1x75x64x512.size a
  inb_S1x75x64x512_S1x1x64x512_0_34_0_0 : ∀ a, (![0, 34, 0, 0] : Fin 4 → Nat) a + S1x1x64x512.size a ≤ S1x75x64x512.size a
  slices_S3x68x516_o1_2_0_S1x64x516 : S3x68x516.Slices ![1, 2, 0] S1x64x516
  inb_S1x75x64x512_S1x1x64x512_0_35_0_0 : ∀ a, (![0, 35, 0, 0] : Fin 4 → Nat) a + S1x1x64x512.size a ≤ S1x75x64x512.size a
  inb_S1x75x64x512_S1x1x64x512_0_36_0_0 : ∀ a, (![0, 36, 0, 0] : Fin 4 → Nat) a + S1x1x64x512.size a ≤ S1x75x64x512.size a
  inb_S1x75x64x512_S1x1x64x512_0_37_0_0 : ∀ a, (![0, 37, 0, 0] : Fin 4 → Nat) a + S1x1x64x512.size a ≤ S1x75x64x512.size a
  inb_S1x75x64x512_S1x1x64x512_0_38_0_0 : ∀ a, (![0, 38, 0, 0] : Fin 4 → Nat) a + S1x1x64x512.size a ≤ S1x75x64x512.size a
  inb_S1x75x64x512_S1x1x64x512_0_39_0_0 : ∀ a, (![0, 39, 0, 0] : Fin 4 → Nat) a + S1x1x64x512.size a ≤ S1x75x64x512.size a
  slices_S3x68x516_o1_3_0_S1x64x516 : S3x68x516.Slices ![1, 3, 0] S1x64x516
  inb_S1x75x64x512_S1x1x64x512_0_40_0_0 : ∀ a, (![0, 40, 0, 0] : Fin 4 → Nat) a + S1x1x64x512.size a ≤ S1x75x64x512.size a
  inb_S1x75x64x512_S1x1x64x512_0_41_0_0 : ∀ a, (![0, 41, 0, 0] : Fin 4 → Nat) a + S1x1x64x512.size a ≤ S1x75x64x512.size a
  inb_S1x75x64x512_S1x1x64x512_0_42_0_0 : ∀ a, (![0, 42, 0, 0] : Fin 4 → Nat) a + S1x1x64x512.size a ≤ S1x75x64x512.size a
  inb_S1x75x64x512_S1x1x64x512_0_43_0_0 : ∀ a, (![0, 43, 0, 0] : Fin 4 → Nat) a + S1x1x64x512.size a ≤ S1x75x64x512.size a
  inb_S1x75x64x512_S1x1x64x512_0_44_0_0 : ∀ a, (![0, 44, 0, 0] : Fin 4 → Nat) a + S1x1x64x512.size a ≤ S1x75x64x512.size a
  slices_S3x68x516_o1_4_0_S1x64x516 : S3x68x516.Slices ![1, 4, 0] S1x64x516
  inb_S1x75x64x512_S1x1x64x512_0_45_0_0 : ∀ a, (![0, 45, 0, 0] : Fin 4 → Nat) a + S1x1x64x512.size a ≤ S1x75x64x512.size a
  inb_S1x75x64x512_S1x1x64x512_0_46_0_0 : ∀ a, (![0, 46, 0, 0] : Fin 4 → Nat) a + S1x1x64x512.size a ≤ S1x75x64x512.size a
  inb_S1x75x64x512_S1x1x64x512_0_47_0_0 : ∀ a, (![0, 47, 0, 0] : Fin 4 → Nat) a + S1x1x64x512.size a ≤ S1x75x64x512.size a
  inb_S1x75x64x512_S1x1x64x512_0_48_0_0 : ∀ a, (![0, 48, 0, 0] : Fin 4 → Nat) a + S1x1x64x512.size a ≤ S1x75x64x512.size a
  inb_S1x75x64x512_S1x1x64x512_0_49_0_0 : ∀ a, (![0, 49, 0, 0] : Fin 4 → Nat) a + S1x1x64x512.size a ≤ S1x75x64x512.size a
  slices_S3x68x516_o2_0_0_S1x64x516 : S3x68x516.Slices ![2, 0, 0] S1x64x516
  inb_S1x75x64x512_S1x1x64x512_0_50_0_0 : ∀ a, (![0, 50, 0, 0] : Fin 4 → Nat) a + S1x1x64x512.size a ≤ S1x75x64x512.size a
  inb_S1x75x64x512_S1x1x64x512_0_51_0_0 : ∀ a, (![0, 51, 0, 0] : Fin 4 → Nat) a + S1x1x64x512.size a ≤ S1x75x64x512.size a
  inb_S1x75x64x512_S1x1x64x512_0_52_0_0 : ∀ a, (![0, 52, 0, 0] : Fin 4 → Nat) a + S1x1x64x512.size a ≤ S1x75x64x512.size a
  inb_S1x75x64x512_S1x1x64x512_0_53_0_0 : ∀ a, (![0, 53, 0, 0] : Fin 4 → Nat) a + S1x1x64x512.size a ≤ S1x75x64x512.size a
  inb_S1x75x64x512_S1x1x64x512_0_54_0_0 : ∀ a, (![0, 54, 0, 0] : Fin 4 → Nat) a + S1x1x64x512.size a ≤ S1x75x64x512.size a
  slices_S3x68x516_o2_1_0_S1x64x516 : S3x68x516.Slices ![2, 1, 0] S1x64x516
  inb_S1x75x64x512_S1x1x64x512_0_55_0_0 : ∀ a, (![0, 55, 0, 0] : Fin 4 → Nat) a + S1x1x64x512.size a ≤ S1x75x64x512.size a
  inb_S1x75x64x512_S1x1x64x512_0_56_0_0 : ∀ a, (![0, 56, 0, 0] : Fin 4 → Nat) a + S1x1x64x512.size a ≤ S1x75x64x512.size a
  inb_S1x75x64x512_S1x1x64x512_0_57_0_0 : ∀ a, (![0, 57, 0, 0] : Fin 4 → Nat) a + S1x1x64x512.size a ≤ S1x75x64x512.size a
  inb_S1x75x64x512_S1x1x64x512_0_58_0_0 : ∀ a, (![0, 58, 0, 0] : Fin 4 → Nat) a + S1x1x64x512.size a ≤ S1x75x64x512.size a
  inb_S1x75x64x512_S1x1x64x512_0_59_0_0 : ∀ a, (![0, 59, 0, 0] : Fin 4 → Nat) a + S1x1x64x512.size a ≤ S1x75x64x512.size a
  slices_S3x68x516_o2_2_0_S1x64x516 : S3x68x516.Slices ![2, 2, 0] S1x64x516
  inb_S1x75x64x512_S1x1x64x512_0_60_0_0 : ∀ a, (![0, 60, 0, 0] : Fin 4 → Nat) a + S1x1x64x512.size a ≤ S1x75x64x512.size a
  inb_S1x75x64x512_S1x1x64x512_0_61_0_0 : ∀ a, (![0, 61, 0, 0] : Fin 4 → Nat) a + S1x1x64x512.size a ≤ S1x75x64x512.size a
  inb_S1x75x64x512_S1x1x64x512_0_62_0_0 : ∀ a, (![0, 62, 0, 0] : Fin 4 → Nat) a + S1x1x64x512.size a ≤ S1x75x64x512.size a
  inb_S1x75x64x512_S1x1x64x512_0_63_0_0 : ∀ a, (![0, 63, 0, 0] : Fin 4 → Nat) a + S1x1x64x512.size a ≤ S1x75x64x512.size a
  inb_S1x75x64x512_S1x1x64x512_0_64_0_0 : ∀ a, (![0, 64, 0, 0] : Fin 4 → Nat) a + S1x1x64x512.size a ≤ S1x75x64x512.size a
  slices_S3x68x516_o2_3_0_S1x64x516 : S3x68x516.Slices ![2, 3, 0] S1x64x516
  inb_S1x75x64x512_S1x1x64x512_0_65_0_0 : ∀ a, (![0, 65, 0, 0] : Fin 4 → Nat) a + S1x1x64x512.size a ≤ S1x75x64x512.size a
  inb_S1x75x64x512_S1x1x64x512_0_66_0_0 : ∀ a, (![0, 66, 0, 0] : Fin 4 → Nat) a + S1x1x64x512.size a ≤ S1x75x64x512.size a
  inb_S1x75x64x512_S1x1x64x512_0_67_0_0 : ∀ a, (![0, 67, 0, 0] : Fin 4 → Nat) a + S1x1x64x512.size a ≤ S1x75x64x512.size a
  inb_S1x75x64x512_S1x1x64x512_0_68_0_0 : ∀ a, (![0, 68, 0, 0] : Fin 4 → Nat) a + S1x1x64x512.size a ≤ S1x75x64x512.size a
  inb_S1x75x64x512_S1x1x64x512_0_69_0_0 : ∀ a, (![0, 69, 0, 0] : Fin 4 → Nat) a + S1x1x64x512.size a ≤ S1x75x64x512.size a
  slices_S3x68x516_o2_4_0_S1x64x516 : S3x68x516.Slices ![2, 4, 0] S1x64x516
  inb_S1x75x64x512_S1x1x64x512_0_70_0_0 : ∀ a, (![0, 70, 0, 0] : Fin 4 → Nat) a + S1x1x64x512.size a ≤ S1x75x64x512.size a
  inb_S1x75x64x512_S1x1x64x512_0_71_0_0 : ∀ a, (![0, 71, 0, 0] : Fin 4 → Nat) a + S1x1x64x512.size a ≤ S1x75x64x512.size a
  inb_S1x75x64x512_S1x1x64x512_0_72_0_0 : ∀ a, (![0, 72, 0, 0] : Fin 4 → Nat) a + S1x1x64x512.size a ≤ S1x75x64x512.size a
  inb_S1x75x64x512_S1x1x64x512_0_73_0_0 : ∀ a, (![0, 73, 0, 0] : Fin 4 → Nat) a + S1x1x64x512.size a ≤ S1x75x64x512.size a
  inb_S1x75x64x512_S1x1x64x512_0_74_0_0 : ∀ a, (![0, 74, 0, 0] : Fin 4 → Nat) a + S1x1x64x512.size a ≤ S1x75x64x512.size a
  inb_S1x1x64x512_S1x1x64x512_0_0_0_0 : ∀ a, (![0, 0, 0, 0] : Fin 4 → Nat) a + S1x1x64x512.size a ≤ S1x1x64x512.size a
  shapeCasts_S64x512_S1x1x64x512 : S64x512.ShapeCasts S1x1x64x512
  hrank0 : 0 < grid0.rank
  k0_mult1_dvd : ∀ i : grid0.Coords, 64 ∣ (k0_mult1 i).toNat
  k0_off1_inb : ∀ i : grid0.Coords, ∀ a, (k0_off1 i) a + S1x3x68x516.size a ≤ S1x3x516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x516x516.size a ≤ S4x3x516x516.size a
  hwx0_0 : ∀ i : grid0.Coords, EltTy.bits .f32 = 32 ∨ (Rect.block (s := S4x3x516x516) S1x3x516x516.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x75x64x512.size a ≤ S4x75x512x512.size a
  hwx0_1 : ∀ i : grid0.Coords, EltTy.bits .f32 = 32 ∨ (Rect.block (s := S4x75x512x512) S1x75x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x512.size a ≤ S4x1x512x512.size a
  hwx0_2 : ∀ i : grid0.Coords, EltTy.bits .f32 = 32 ∨ (Rect.block (s := S4x1x512x512) S1x1x64x512.size (cc0_transform_2 i) (hinb0_2 i)).WholeWords (EltTy.packing .f32)

variable [Facts₀]

abbrev win0_0 : Pipeline.Window sig grid0 :=
  Pipeline.Window.ofSpec (Memref.whole main_v0) S1x3x516x516.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x75x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S4x75x512x512 : Shape := ⟨4, ![4, 75, 512, 512]⟩
abbrev S_ : Shape := ⟨0, ![]⟩
abbrev S4x3x516x516 : Shape := ⟨4, ![4, 3, 516, 516]⟩
abbrev S4x3x1x512x512 : Shape := ⟨5, ![4, 3, 1, 512, 512]⟩
abbrev S4x3x16x512x512 : Shape := ⟨5, ![4, 3, 16, 512, 512]⟩
abbrev S4x3x9x512x512 : Shape := ⟨5, ![4, 3, 9, 512, 512]⟩
abbrev S4x3x25x512x512 : Shape := ⟨5, ![4, 3, 25, 512, 512]⟩
abbrev S4x512x512 : Shape := ⟨3, ![4, 512, 512]⟩
abbrev S4x1x512x512 : Shape := ⟨4, ![4, 1, 512, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x516x516, .f32⟩
  | .hbm, ⟨5, _⟩ => ⟨S4x3x512x512, .f32⟩
  | .hbm, ⟨6, _⟩ => ⟨S4x3x512x512, .f32⟩
  | .hbm, ⟨7, _⟩ => ⟨S4x3x512x512, .f32⟩
  | .hbm, ⟨8, _⟩ => ⟨S4x3x512x512, .f32⟩
  | .hbm, ⟨9, _⟩ => ⟨S4x3x512x512, .f32⟩
  | .hbm, ⟨10, _⟩ => ⟨S4x3x512x512, .f32⟩
  | .hbm, ⟨11, _⟩ => ⟨S4x3x512x512, .f32⟩
  | .hbm, ⟨12, _⟩ => ⟨S4x3x512x512, .f32⟩
  | .hbm, ⟨13, _⟩ => ⟨S4x3x512x512, .f32⟩
  | .hbm, ⟨14, _⟩ => ⟨S4x3x512x512, .f32⟩
  | .hbm, ⟨15, _⟩ => ⟨S4x3x512x512, .f32⟩
  | .hbm, ⟨16, _⟩ => ⟨S4x3x512x512, .f32⟩
  | .hbm, ⟨17, _⟩ => ⟨S4x3x512x512, .f32⟩
  | .hbm, ⟨18, _⟩ => ⟨S4x3x512x512, .f32⟩
  | .hbm, ⟨19, _⟩ => ⟨S4x3x512x512, .f32⟩
  | .hbm, ⟨20, _⟩ => ⟨S4x3x512x512, .f32⟩
  | .hbm, ⟨21, _⟩ => ⟨S4x3x512x512, .f32⟩
  | .hbm, ⟨22, _⟩ => ⟨S4x3x512x512, .f32⟩
  | .hbm, ⟨23, _⟩ => ⟨S4x3x512x512, .f32⟩
  | .hbm, ⟨24, _⟩ => ⟨S4x3x512x512, .f32⟩
  | .hbm, ⟨25, _⟩ => ⟨S4x3x512x512, .f32⟩
  | .hbm, ⟨26, _⟩ => ⟨S4x3x512x512, .f32⟩
  | .hbm, ⟨27, _⟩ => ⟨S4x3x512x512, .f32⟩
  | .hbm, ⟨28, _⟩ => ⟨S4x3x512x512, .f32⟩
  | .hbm, ⟨29, _⟩ => ⟨S4x3x512x512, .f32⟩
  | .hbm, ⟨30, _⟩ => ⟨S4x3x1x512x512, .f32⟩
  | .hbm, ⟨31, _⟩ => ⟨S4x3x1x512x512, .f32⟩
  | .hbm, ⟨32, _⟩ => ⟨S4x3x1x512x512, .f32⟩
  | .hbm, ⟨33, _⟩ => ⟨S4x3x1x512x512, .f32⟩
  | .hbm, ⟨34, _⟩ => ⟨S4x3x1x512x512, .f32⟩
  | .hbm, ⟨35, _⟩ => ⟨S4x3x1x512x512, .f32⟩
  | .hbm, ⟨36, _⟩ => ⟨S4x3x1x512x512, .f32⟩
  | .hbm, ⟨37, _⟩ => ⟨S4x3x1x512x512, .f32⟩
  | .hbm, ⟨38, _⟩ => ⟨S4x3x1x512x512, .f32⟩
  | .hbm, ⟨39, _⟩ => ⟨S4x3x1x512x512, .f32⟩
  | .hbm, ⟨40, _⟩ => ⟨S4x3x1x512x512, .f32⟩
  | .hbm, ⟨41, _⟩ => ⟨S4x3x1x512x512, .f32⟩
  | .hbm, ⟨42, _⟩ => ⟨S4x3x1x512x512, .f32⟩
  | .hbm, ⟨43, _⟩ => ⟨S4x3x1x512x512, .f32⟩
  | .hbm, ⟨44, _⟩ => ⟨S4x3x1x512x512, .f32⟩
  | .hbm, ⟨45, _⟩ => ⟨S4x3x1x512x512, .f32⟩
  | .hbm, ⟨46, _⟩ => ⟨S4x3x1x512x512, .f32⟩
  | .hbm, ⟨47, _⟩ => ⟨S4x3x1x512x512, .f32⟩
  | .hbm, ⟨48, _⟩ => ⟨S4x3x1x512x512, .f32⟩
  | .hbm, ⟨49, _⟩ => ⟨S4x3x1x512x512, .f32⟩
  | .hbm, ⟨50, _⟩ => ⟨S4x3x1x512x512, .f32⟩
  | .hbm, ⟨51, _⟩ => ⟨S4x3x1x512x512, .f32⟩
  | .hbm, ⟨52, _⟩ => ⟨S4x3x1x512x512, .f32⟩
  | .hbm, ⟨53, _⟩ => ⟨S4x3x1x512x512, .f32⟩
  | .hbm, ⟨54, _⟩ => ⟨S4x3x1x512x512, .f32⟩
  | .hbm, ⟨55, _⟩ => ⟨S4x3x16x512x512, .f32⟩
  | .hbm, ⟨56, _⟩ => ⟨S4x3x9x512x512, .f32⟩
  | .hbm, ⟨57, _⟩ => ⟨S4x3x25x512x512, .f32⟩
  | .hbm, ⟨58, _⟩ => ⟨S4x75x512x512, .f32⟩
  | .hbm, ⟨59, _⟩ => ⟨S4x75x512x512, .f32⟩
  | .hbm, ⟨60, _⟩ => ⟨S_, .f32⟩
  | .hbm, ⟨61, _⟩ => ⟨S4x512x512, .f32⟩
  | .hbm, ⟨62, _⟩ => ⟨S4x1x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩
abbrev main_v57 : Ref sig .tc := ⟨.hbm, 62, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  slices_S4x3x516x516_S4x3x512x512_0_0_0_0 : S4x3x516x516.Slices ![0, 0, 0, 0] S4x3x512x512
  slices_S4x3x516x516_S4x3x512x512_0_0_0_1 : S4x3x516x516.Slices ![0, 0, 0, 1] S4x3x512x512
  slices_S4x3x516x516_S4x3x512x512_0_0_0_2 : S4x3x516x516.Slices ![0, 0, 0, 2] S4x3x512x512
  slices_S4x3x516x516_S4x3x512x512_0_0_0_3 : S4x3x516x516.Slices ![0, 0, 0, 3] S4x3x512x512
  slices_S4x3x516x516_S4x3x512x512_0_0_0_4 : S4x3x516x516.Slices ![0, 0, 0, 4] S4x3x512x512
  slices_S4x3x516x516_S4x3x512x512_0_0_1_0 : S4x3x516x516.Slices ![0, 0, 1, 0] S4x3x512x512
  slices_S4x3x516x516_S4x3x512x512_0_0_1_1 : S4x3x516x516.Slices ![0, 0, 1, 1] S4x3x512x512
  slices_S4x3x516x516_S4x3x512x512_0_0_1_2 : S4x3x516x516.Slices ![0, 0, 1, 2] S4x3x512x512
  slices_S4x3x516x516_S4x3x512x512_0_0_1_3 : S4x3x516x516.Slices ![0, 0, 1, 3] S4x3x512x512
  slices_S4x3x516x516_S4x3x512x512_0_0_1_4 : S4x3x516x516.Slices ![0, 0, 1, 4] S4x3x512x512
  slices_S4x3x516x516_S4x3x512x512_0_0_2_0 : S4x3x516x516.Slices ![0, 0, 2, 0] S4x3x512x512
  slices_S4x3x516x516_S4x3x512x512_0_0_2_1 : S4x3x516x516.Slices ![0, 0, 2, 1] S4x3x512x512
  slices_S4x3x516x516_S4x3x512x512_0_0_2_2 : S4x3x516x516.Slices ![0, 0, 2, 2] S4x3x512x512
  slices_S4x3x516x516_S4x3x512x512_0_0_2_3 : S4x3x516x516.Slices ![0, 0, 2, 3] S4x3x512x512
  slices_S4x3x516x516_S4x3x512x512_0_0_2_4 : S4x3x516x516.Slices ![0, 0, 2, 4] S4x3x512x512
  slices_S4x3x516x516_S4x3x512x512_0_0_3_0 : S4x3x516x516.Slices ![0, 0, 3, 0] S4x3x512x512
  slices_S4x3x516x516_S4x3x512x512_0_0_3_1 : S4x3x516x516.Slices ![0, 0, 3, 1] S4x3x512x512
  slices_S4x3x516x516_S4x3x512x512_0_0_3_2 : S4x3x516x516.Slices ![0, 0, 3, 2] S4x3x512x512
  slices_S4x3x516x516_S4x3x512x512_0_0_3_3 : S4x3x516x516.Slices ![0, 0, 3, 3] S4x3x512x512
  slices_S4x3x516x516_S4x3x512x512_0_0_3_4 : S4x3x516x516.Slices ![0, 0, 3, 4] S4x3x512x512
  slices_S4x3x516x516_S4x3x512x512_0_0_4_0 : S4x3x516x516.Slices ![0, 0, 4, 0] S4x3x512x512
  slices_S4x3x516x516_S4x3x512x512_0_0_4_1 : S4x3x516x516.Slices ![0, 0, 4, 1] S4x3x512x512
  slices_S4x3x516x516_S4x3x512x512_0_0_4_2 : S4x3x516x516.Slices ![0, 0, 4, 2] S4x3x512x512
  slices_S4x3x516x516_S4x3x512x512_0_0_4_3 : S4x3x516x516.Slices ![0, 0, 4, 3] S4x3x512x512
  slices_S4x3x516x516_S4x3x512x512_0_0_4_4 : S4x3x516x516.Slices ![0, 0, 4, 4] S4x3x512x512
  bcast_S4x3x512x512_S4x3x1x512x512_0_1_3_4 : S4x3x512x512.BroadcastsInDim S4x3x1x512x512 (![0, 1, 3, 4] : Fin 4 → Fin S4x3x1x512x512.rank)
  concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2 : Shape.Concatenates [S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512] S4x3x16x512x512 2
  concatenates_S4x3x1x512x512_S4x3x1x512x512_S4x3x1x512x512_S4x3x1x512x512_S4x3x1x512x512_S4x3x1x512x512_S4x3x1x512x512_S4x3x1x512x512_S4x3x1x512x512_S4x3x9x512x512_d2 : Shape.Concatenates [S4x3x1x512x512, S4x3x1x512x512, S4x3x1x512x512, S4x3x1x512x512, S4x3x1x512x512, S4x3x1x512x512, S4x3x1x512x512, S4x3x1x512x512, S4x3x1x512x512] S4x3x9x512x512 2
  concatenates_S4x3x16x512x512_S4x3x9x512x512_S4x3x25x512x512_d2 : Shape.Concatenates [S4x3x16x512x512, S4x3x9x512x512] S4x3x25x512x512 2
  shapeCasts_S4x3x25x512x512_S4x75x512x512 : S4x3x25x512x512.ShapeCasts S4x75x512x512
  reducesTo_S4x75x512x512_S4x512x512_d1 : S4x75x512x512.ReducesTo [1] S4x512x512
  bcast_S4x512x512_S4x1x512x512_0_2_3 : S4x512x512.BroadcastsInDim S4x1x512x512 (![0, 2, 3] : Fin 3 → Fin S4x1x512x512.rank)

variable [Facts₀]

class Facts : Prop extends Facts₀ where

variable [Facts]
-- ==== Proof.LocalFilter.lean ====
/-
  The per-pixel local filter. A three-channel image, zero-padded by two on each side of its two spatial axes,
  is read through a 5 × 5 window at every pixel; the 3 · 25 = 75 values under the window are multiplied by 75
  weights that belong to that pixel alone, and the products are added. Tap `k` of the window, in the order the
  weights are stored, is channel `k / 25`, row offset `k % 25 / 5`, column offset `k % 5`.
  The extended reals form a commutative monoid under addition, so the order in which the 75 products are added
  does not matter, and nothing here needs the entries to be finite.
-/
import Idealize.ShloMosaic.Lib.ValueIdx
import Idealize.ShloMosaic.Lib.Pipeline.Value

noncomputable section

open scoped BigOperators

namespace Cert.LocalFilter

open Idealize.ShloMosaic Idealize.ShloMosaic.ValueIdx

/-! ## The taps of the window -/

/-- The channel of tap `k`. -/
def tapChan (k : Fin 75) : Fin 3 := ⟨k.val / 25, by have := k.isLt; omega⟩
/-- The row offset of tap `k`. -/
def tapRow (k : Fin 75) : Fin 5 := ⟨k.val % 25 / 5, by have := k.isLt; omega⟩
/-- The column offset of tap `k`. -/
def tapCol (k : Fin 75) : Fin 5 := ⟨k.val % 5, by have := k.isLt; omega⟩
/-- A row (or column) of the image moved down (right) by an offset of the window: a row (column) of the padded image. -/
def shifted (h : Fin 512) (d : Fin 5) : Fin 516 := ⟨h.val + d.val, by have := h.isLt; have := d.isLt; omega⟩

/-- The filter's result from the PADDED image `xp` and the weights `f`: at pixel (h, w) of batch entry `b` the sum
    over the 75 taps of the padded image at (channel, h + row offset, w + column offset) times that pixel's weight
    for the tap. -/
def localFilter (xp : (⟨4, ![4, 3, 516, 516]⟩ : Shape).Idx → EReal) (f : (⟨4, ![4, 75, 512, 512]⟩ : Shape).Idx → EReal) :
    (⟨4, ![4, 1, 512, 512]⟩ : Shape).Idx → EReal :=
  fun i => ∑ k : Fin 75, xp (ix4 (i 0) (tapChan k) (shifted (i 2) (tapRow k)) (shifted (i 3) (tapCol k))) * f (ix4 (i 0) k (i 2) (i 3))

/-! ## Entries by natural-number coordinates -/

/-- Entry (a, b, c, d) of a rank-4 array named by natural numbers, `0` off the array: a total function of the four
    numbers, so that a sum whose terms are written out one by one can be compared with a sum over a range. -/
def at4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem at4_of_lt {n0 n1 n2 n3 : ℕ} (x : (⟨4, ![n0, n1, n2, n3]⟩ : Shape).Idx → EReal) {a b c d : ℕ}
    (ha : a < n0) (hb : b < n1) (hc : c < n2) (hd : d < n3) :
    at4 x a b c d = x (ix4 ⟨a, ha⟩ ⟨b, hb⟩ ⟨c, hc⟩ ⟨d, hd⟩) :=
  dif_pos ⟨ha, hb, hc, hd⟩

/-! ## The sum over the taps as a sum over a range -/

/-- A sum over the 75 taps of products of entries, the entries named by natural numbers computed from the tap's
    number, is the sum over the taps as elements of `Fin 75` of the same entries named by indices. `w` is a window of
    68 rows of one batch entry's padded image and `g` one batch entry's weights for a tile of 64 rows. -/
theorem sum_range_taps (w : (⟨4, ![1, 3, 68, 516]⟩ : Shape).Idx → EReal) (g : (⟨4, ![1, 75, 64, 512]⟩ : Shape).Idx → EReal)
    (r : Fin 64) (q : Fin 512) :
    ∑ k ∈ Finset.range 75, at4 w 0 (k / 25) (r.val + k % 25 / 5) (q.val + k % 5) * at4 g 0 k r.val q.val
      = ∑ k : Fin 75, w (ix4 0 (tapChan k) ⟨r.val + (tapRow k).val, by have := r.isLt; have := (tapRow k).isLt; omega⟩
            ⟨q.val + (tapCol k).val, by have := q.isLt; have := (tapCol k).isLt; omega⟩) * g (ix4 0 k r q) := by
  rw [← Fin.sum_univ_eq_sum_range (fun k => at4 w 0 (k / 25) (r.val + k % 25 / 5) (q.val + k % 5) * at4 g 0 k r.val q.val) 75]
  refine Finset.sum_congr rfl fun k _ => ?_
  have hk := k.isLt
  have hr := r.isLt
  have hq := q.isLt
  rw [at4_of_lt w (by omega : 0 < 1) (by omega : k.val / 25 < 3) (by omega : r.val + k.val % 25 / 5 < 68) (by omega : q.val + k.val % 5 < 516),
    at4_of_lt g (by omega : 0 < 1) hk hr hq]
  rfl

end Cert.LocalFilter

end
-- ==== Proof.LayoutReads.lean ====
/-
  Three reads of re-laid vectors at an index, at the shapes of a 64 × 512 tile of pixels.
  A tile stored as a [1, 1, 64, 512] block and viewed as [64, 512], or the other way round, keeps entry (r, q) at
  (0, 0, r, q): the two unit axes carry no position. A tap of the window is read in four steps from the 68 rows
  × 516 columns of padded image a tile needs: drop the leading unit axis, take channel `c` and the 64 rows from
  row `i` on, drop the unit axis again, take the 512 columns from column `j` on; at (r, q) that is the window at
  (c, r + i, q + j).
-/
import proofs.«180676_j55972013802282_1_alg».proof.Proof.LocalFilter

noncomputable section

namespace Cert.LocalFilter

open Idealize.ShloMosaic Idealize.ShloMosaic.ValueIdx

/-- A [64, 512] tile viewed as a [1, 1, 64, 512] block, read at (a, b, r, q), is the tile at (r, q). -/
theorem tile_as_block_apply {α : Type} (v : (⟨2, ![64, 512]⟩ : Shape).Idx → α)
    (h : (⟨2, ![64, 512]⟩ : Shape).ShapeCasts ⟨4, ![1, 1, 64, 512]⟩) (a b : Fin 1) (r : Fin 64) (q : Fin 512) :
    shapeCast ⟨4, ![1, 1, 64, 512]⟩ v h (ix4 a b r q) = v (ix2 r q) := by
  refine shapeCast_apply v h (ix4 a b r q) (ix2 r q) ?_
  rw [Shape.rowMajor_val_two, Shape.rowMajor_val_four]
  have ha := a.isLt
  have hb := b.isLt
  show r.val * 512 + q.val = ((a.val * 1 + b.val) * 64 + r.val) * 512 + q.val
  omega

/-- A [1, 1, 64, 512] block viewed as a [64, 512] tile, read at (r, q), is the block at (0, 0, r, q). -/
theorem block_as_tile_apply {α : Type} (v : (⟨4, ![1, 1, 64, 512]⟩ : Shape).Idx → α)
    (h : (⟨4, ![1, 1, 64, 512]⟩ : Shape).ShapeCasts ⟨2, ![64, 512]⟩) (r : Fin 64) (q : Fin 512) :
    shapeCast ⟨2, ![64, 512]⟩ v h (ix2 r q) = v (ix4 0 0 r q) := by
  refine shapeCast_apply v h (ix2 r q) (ix4 0 0 r q) ?_
  rw [Shape.rowMajor_val_two, Shape.rowMajor_val_four]
  show ((0 * 1 + 0) * 64 + r.val) * 512 + q.val = r.val * 512 + q.val
  omega

/-- One tap of the window, read at pixel (r, q) of the tile: the window of 68 × 516 padded-image entries per channel
    at channel `c`, row `r + i`, column `q + j`. -/
theorem tap_apply (w : (⟨4, ![1, 3, 68, 516]⟩ : Shape).Idx → EReal) (c i j : ℕ)
    (h0 : (⟨4, ![1, 3, 68, 516]⟩ : Shape).ShapeCasts ⟨3, ![3, 68, 516]⟩)
    (h3 : (⟨3, ![3, 68, 516]⟩ : Shape).Slices ![c, i, 0] ⟨3, ![1, 64, 516]⟩)
    (h1 : (⟨3, ![1, 64, 516]⟩ : Shape).ShapeCasts ⟨2, ![64, 516]⟩)
    (h2 : (⟨2, ![64, 516]⟩ : Shape).Slices ![0, j] ⟨2, ![64, 512]⟩) (r : Fin 64) (q : Fin 512) :
    extractStridedSlice ⟨2, ![64, 512]⟩ ![0, j]
        (shapeCast ⟨2, ![64, 516]⟩ (extractStridedSlice ⟨3, ![1, 64, 516]⟩ ![c, i, 0] (shapeCast ⟨3, ![3, 68, 516]⟩ w h0) h3) h1) h2 (ix2 r q)
      = at4 w 0 c (r.val + i) (q.val + j) := by
  have hr := r.isLt
  have hq := q.isLt
  have hc : c + 1 ≤ 3 := h3.2 0
  have hi : i + 64 ≤ 68 := h3.2 1
  have hj : j + 512 ≤ 516 := h2.2 1
  rw [at4_of_lt w (by omega : 0 < 1) (by omega : c < 3) (by omega : r.val + i < 68) (by omega : q.val + j < 516)]
  refine (extractStridedSlice_apply ![0, j] _ h2 (ix2 r q) (ix2 r ⟨q.val + j, by omega⟩) (fun a => ?_)).trans ?_
  · match a with
    | ⟨0, _⟩ => show r.val = 0 + r.val; omega
    | ⟨1, _⟩ => show q.val + j = j + q.val; omega
  refine (shapeCast_apply _ h1 (ix2 r ⟨q.val + j, by omega⟩) (ix3 (0 : Fin 1) r ⟨q.val + j, by omega⟩) ?_).trans ?_
  · rw [Shape.rowMajor_val_two, Shape.rowMajor_val_three]
    show (0 * 64 + r.val) * 516 + (q.val + j) = r.val * 516 + (q.val + j)
    omega
  refine (extractStridedSlice_apply ![c, i, 0] _ h3 (ix3 (0 : Fin 1) r ⟨q.val + j, by omega⟩)
    (ix3 ⟨c, by omega⟩ ⟨r.val + i, by omega⟩ ⟨q.val + j, by omega⟩) (fun a => ?_)).trans ?_
  · match a with
    | ⟨0, _⟩ => show c = c + 0; omega
    | ⟨1, _⟩ => show r.val + i = i + r.val; omega
    | ⟨2, _⟩ => show q.val + j = 0 + (q.val + j); omega
  refine shapeCast_apply w h0 (ix3 ⟨c, by omega⟩ ⟨r.val + i, by omega⟩ ⟨q.val + j, by omega⟩) _ ?_
  rw [Shape.rowMajor_val_three, Shape.rowMajor_val_four]
  show ((0 * 3 + c) * 68 + (r.val + i)) * 516 + (q.val + j) = (c * 68 + (r.val + i)) * 516 + (q.val + j)
  omega

end Cert.LocalFilter

end
-- ==== Proof.TileValue.lean ====
/-
  One tile of the kernel's result. At a grid point the body loads, from the padded image of one batch entry, the
  68 rows its 64-row tile can reach (4 rows of overlap below), and from the weights the 75 planes of the tile; it
  starts from the zero tile and adds, tap after tap in the order (channel, row offset, column offset), the window
  moved by the tap times the tap's plane. Read at pixel (r, q) of the tile that is
  0 + w(c₀, r + i₀, q + j₀) · g(0, r, q) + … + w(c₇₄, r + i₇₄, q + j₇₄) · g(74, r, q),
  and the 75 terms written out are the sum over k < 75 of the term at channel k / 25, row offset k % 25 / 5, column
  offset k % 5.
-/
import proofs.«180676_j55972013802282_1_alg».proof.Proof.Gen.KernelIdeal.Value
import proofs.«180676_j55972013802282_1_alg».proof.Proof.LayoutReads
import Idealize.ShloMosaic.PureOps.Ideal.Laws
import Idealize.ShloMosaic.Lib.Tactic

set_option maxRecDepth 16384

noncomputable section

open scoped BigOperators

namespace Cert.KernelIdeal.Tile

open Cert.KernelIdeal Cert.KernelIdeal.Gen Cert.LocalFilter
open Idealize.ShloMosaic Idealize.ShloMosaic.TcCoe Idealize.ShloMosaic.ValueIdx Idealize.SL.Sem

theorem zero_offsets : (![0, 0, 0, 0] : Fin 4 → Nat) = fun _ => 0 := funext fun a => by fin_cases a <;> rfl

/-- Plane `k` of a tile's weights, loaded as a [1, 1, 64, 512] block, read at (0, 0, r, q): the weights at (0, k, r, q). -/
theorem plane_apply (g : Vec Ideal S1x75x64x512 .f32) (k : ℕ)
    (inb : ∀ a, (![0, k, 0, 0] : Fin 4 → ℕ) a + (![1, 1, 64, 512] : Fin 4 → ℕ) a ≤ S1x75x64x512.size a) (r : Fin 64) (q : Fin 512) :
    View.ld g (Rect.unit (s := S1x75x64x512) ![0, k, 0, 0] ![1, 1, 64, 512] inb) (ix4 0 0 r q) = at4 g 0 k r.val q.val := by
  have hk : k + 1 ≤ 75 := inb 1
  rw [at4_of_lt g (by omega : 0 < 1) (by omega : k < 75) r.isLt q.isLt]
  show g _ = g _
  refine congrArg g (funext fun a => Fin.ext ?_)
  match a with
  | ⟨0, _⟩ => show 0 + 1 * 0 = 0; omega
  | ⟨1, _⟩ => show k + 1 * 0 = k; omega
  | ⟨2, _⟩ => show 0 + 1 * r.val = r.val; omega
  | ⟨3, _⟩ => show 0 + 1 * q.val = q.val; omega

/-- THE TILE at a pixel: the 75 products the body adds one after the other, from the zero tile, are the sum over the
    taps of the loaded window at the tap's channel, the pixel's row and column moved by the tap's offsets, times the
    tap's plane of the weights at the pixel. `x0` is the batch entry's padded image as staged, `x1` the tile's weights. -/
theorem tile_apply (c : Dev nD) (i : grid0.Coords) (a2 : Memref sig .tc .vmem S1x3x516x516 .f32) (h2 : a2.IsWhole)
    (a3 : Memref sig .tc .vmem S1x75x64x512 .f32) (h3 : a3.IsWhole) (a4 : Memref sig .tc .vmem S1x1x64x512 .f32) (h4 : a4.IsWhole)
    (x0 : Vec Ideal S1x3x516x516 .f32) (x1 : Vec Ideal S1x75x64x512 .f32) (a b : Fin 1) (r : Fin 64) (q : Fin 512) :
    out0_A_2 (F := Ideal) c i a2 h2 a3 h3 a4 h4 x0 x1 (ix4 a b r q)
      = ∑ k ∈ Finset.range 75,
          at4 (View.ld x0 (Rect.unit (s := S1x3x516x516) (k0_off1 i) ![1, 3, 68, 516] (k0_off1_inb i))) 0 (k / 25) (r.val + k % 25 / 5) (q.val + k % 5)
            * at4 x1 0 k r.val q.val := by
  -- the first row of the tile's window as the body computes it: 64 times the tile's number, as an index
  show _ = ∑ k ∈ Finset.range 75,
      at4 (View.ld x0 (Rect.unit (s := S1x3x516x516)
          ![0, 0, BitVec.toNat (Scalar.indexCast (Scalar.muli (BitVec.ofNat 32 (i 1).val) 64#32)), 0] ![1, 3, 68, 516] (k0_off1_inb i)))
        0 (k / 25) (r.val + k % 25 / 5) (q.val + k % 5) * at4 x1 0 k r.val q.val
  unfold out0_A_2
  rw [View.read_writes_eq_canon _ _ _ (cover0_A_2 c i a2 h2 a3 h3 a4 h4 x0 x1)]
  unfold kernelRun0_A
  dsimp only
  sl_unfold_words
  rw [View.canon_unit_zero zero_offsets]
  simp only [View.readAt_eq_ld, h2.read_unread, h3.read_unread]
  generalize View.ld x0 _ = w
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36]
  rw [tile_as_block_apply]
  have hplane : ∀ (k : ℕ) (inb : ∀ a, (![0, k, 0, 0] : Fin 4 → ℕ) a + (![1, 1, 64, 512] : Fin 4 → ℕ) a ≤ S1x75x64x512.size a),
      View.ld x1 (Rect.unit (s := S1x75x64x512) ![0, k, 0, 0] ![1, 1, 64, 512] inb) (ix4 0 0 r q) = at4 x1 0 k r.val q.val :=
    fun k inb => plane_apply x1 k inb r q
  simp only [addf_apply, mulf_apply, broadcast_apply, tap_apply, block_as_tile_apply, hplane,
    Scalar.ofBits, Ideal.ofBits_def, Ideal.ofBits_zero_f32,
    Finset.sum_range_succ, Finset.sum_range_zero, Nat.reduceDiv, Nat.reduceMod]

end Cert.KernelIdeal.Tile

end
-- ==== Proof.ResultArray.lean ====
/-
  From tiles to the array. The grid has 4 × 8 points: point (b, h) stages the whole padded image of batch entry
  `b` (a block that does not move with `h`), rows 64·h … 64·h + 63 of that entry's weights, and writes rows
  64·h … 64·h + 63 of the entry's one result channel. The body's window of 68 padded rows starts at padded row
  64·h, so pixel (r, q) of the tile reads padded rows 64·h + r + i: the rows (64·h + r) + i the filter reads at
  result row 64·h + r. Every point writes its tile back, the 32 tiles are disjoint and fill the array, so the
  array ends holding the local filter of the padded image and the weights.
-/
import proofs.«180676_j55972013802282_1_alg».proof.Proof.TileValue
import Idealize.ShloMosaic.Lib.StableHlo.Run

set_option maxRecDepth 16384

noncomputable section

open scoped BigOperators

namespace Cert.KernelIdeal.Result

open Cert.KernelIdeal Cert.KernelIdeal.Gen Cert.LocalFilter
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three index maps at a grid point, decided over the 32 points: the image block follows the batch entry only,
    the weights' and the result's blocks follow the batch entry and the row tile. -/
theorem idx_facts : ∀ t : Fin cfg0.N,
    win0_0.index t (0 : Fin 4) = (grid0.coords t 0).val ∧ win0_0.index t (1 : Fin 4) = 0
    ∧ win0_0.index t (2 : Fin 4) = 0 ∧ win0_0.index t (3 : Fin 4) = 0
    ∧ win0_1.index t (0 : Fin 4) = (grid0.coords t 0).val ∧ win0_1.index t (1 : Fin 4) = 0
    ∧ win0_1.index t (2 : Fin 4) = (grid0.coords t 1).val ∧ win0_1.index t (3 : Fin 4) = 0
    ∧ win0_2.index t (0 : Fin 4) = (grid0.coords t 0).val ∧ win0_2.index t (1 : Fin 4) = 0
    ∧ win0_2.index t (2 : Fin 4) = (grid0.coords t 1).val ∧ win0_2.index t (3 : Fin 4) = 0 :=
  (by decide +kernel : ∀ t : Fin grid0.N, _)

/-- Every (batch entry, row tile) pair is some point's. -/
theorem idx_onto : ∀ (b : Fin 4) (h : Fin 8), ∃ t : Fin cfg0.N, win0_2.index t = ![b.val, 0, h.val, 0] :=
  (by decide +kernel : ∀ (b : Fin 4) (h : Fin 8), ∃ t : Fin grid0.N, win0_2.index t = ![b.val, 0, h.val, 0])

/-- One entry of the window point `t` loads — channel of tap `k`, the tile's pixel (r, q) moved by the tap's offsets —
    is the padded image the region finds at batch entry `b`, the tap's channel, and the result pixel (h, w) moved by the
    same offsets, when `b`, `h`, `w` are the point's batch entry, 64 times its row tile plus `r`, and `q`. -/
theorem window_term (c : Dev nD) (t : Fin cfg0.N) (k : Fin 75) (r : Fin 64) (q : Fin 512) (b : Fin 4) (h w : Fin 512)
    (hb : b.val = (grid0.coords t 0).val) (hh : h.val = 64 * (grid0.coords t 1).val + r.val) (hw : w.val = q.val) :
    View.ld (iblk m c 0 t) (Rect.unit (s := S1x3x516x516) (k0_off1 (grid0.coords t)) ![1, 3, 68, 516] (k0_off1_inb (grid0.coords t)))
        (ix4 0 (tapChan k) ⟨r.val + (tapRow k).val, by have := r.isLt; have := (tapRow k).isLt; omega⟩
          ⟨q.val + (tapCol k).val, by have := q.isLt; have := (tapCol k).isLt; omega⟩)
      = V m c main_v0 (ix4 b (tapChan k) (shifted h (tapRow k)) (shifted w (tapCol k))) := by
  obtain ⟨e00, e01, e02, e03, -⟩ := idx_facts t
  have hoff := k0_off1_eq (grid0.coords t)
  have hidx : ((cfg0.win 0).blk t).view.emb ((Rect.unit (s := S1x3x516x516) (k0_off1 (grid0.coords t)) ![1, 3, 68, 516] (k0_off1_inb (grid0.coords t))).idx
        (ix4 0 (tapChan k) ⟨r.val + (tapRow k).val, by have := r.isLt; have := (tapRow k).isLt; omega⟩
          ⟨q.val + (tapCol k).val, by have := q.isLt; have := (tapCol k).isLt; omega⟩))
      = (ix4 b (tapChan k) (shifted h (tapRow k)) (shifted w (tapCol k)) : S4x3x516x516.Idx) := by
    funext a; apply Fin.ext
    match a with
    | ⟨0, _⟩ =>
      show win0_0.index t (0 : Fin 4) * 1 + 1 * (k0_off1 (grid0.coords t) 0 + 1 * 0) = b.val
      rw [hoff]; show win0_0.index t (0 : Fin 4) * 1 + 1 * (0 + 1 * 0) = b.val; omega
    | ⟨1, _⟩ =>
      show win0_0.index t (1 : Fin 4) * 3 + 1 * (k0_off1 (grid0.coords t) 1 + 1 * (tapChan k).val) = (tapChan k).val
      rw [hoff]; show win0_0.index t (1 : Fin 4) * 3 + 1 * (0 + 1 * (tapChan k).val) = (tapChan k).val; omega
    | ⟨2, _⟩ =>
      show win0_0.index t (2 : Fin 4) * 516 + 1 * (k0_off1 (grid0.coords t) 2 + 1 * (r.val + (tapRow k).val)) = h.val + (tapRow k).val
      rw [hoff]; show win0_0.index t (2 : Fin 4) * 516 + 1 * (64 * (grid0.coords t 1).val + 1 * (r.val + (tapRow k).val)) = h.val + (tapRow k).val; omega
    | ⟨3, _⟩ =>
      show win0_0.index t (3 : Fin 4) * 516 + 1 * (k0_off1 (grid0.coords t) 3 + 1 * (q.val + (tapCol k).val)) = w.val + (tapCol k).val
      rw [hoff]; show win0_0.index t (3 : Fin 4) * 516 + 1 * (0 + 1 * (q.val + (tapCol k).val)) = w.val + (tapCol k).val; omega
  show V m c main_v0 (((cfg0.win 0).blk t).view.emb _) = _
  rw [hidx]

/-- The weight of tap `k` at the tile's pixel (r, q), as point `t` stages it, is the weights the region finds at batch
    entry `b`, plane `k`, result pixel (h, w), under the same three equations. -/
theorem weight_term (c : Dev nD) (t : Fin cfg0.N) (k : Fin 75) (r : Fin 64) (q : Fin 512) (b : Fin 4) (h w : Fin 512)
    (hb : b.val = (grid0.coords t 0).val) (hh : h.val = 64 * (grid0.coords t 1).val + r.val) (hw : w.val = q.val) :
    iblk m c 1 t (ix4 0 k r q) = V m c main_arg1 (ix4 b k h w) := by
  obtain ⟨-, -, -, -, e10, e11, e12, e13, -⟩ := idx_facts t
  have hidx : ((cfg0.win 1).blk t).view.emb (ix4 0 k r q) = (ix4 b k h w : S4x75x512x512.Idx) := by
    funext a; apply Fin.ext
    match a with
    | ⟨0, _⟩ => show win0_1.index t (0 : Fin 4) * 1 + 1 * 0 = b.val; omega
    | ⟨1, _⟩ => show win0_1.index t (1 : Fin 4) * 75 + 1 * k.val = k.val; omega
    | ⟨2, _⟩ => show win0_1.index t (2 : Fin 4) * 64 + 1 * r.val = h.val; omega
    | ⟨3, _⟩ => show win0_1.index t (3 : Fin 4) * 512 + 1 * q.val = w.val; omega
  show V m c main_arg1 (((cfg0.win 1).blk t).view.emb _) = _
  rw [hidx]

/-- WHAT POINT `t` WRITES BACK is block `t` of the local filter of the padded image and the weights as the region
    finds them. -/
theorem flushed_eq (c : Dev nD) (t : Fin cfg0.N) :
    (dats m 0 c).flushed 2 t
      = ((cfg0.win 2).blk t).view.read (Elt Ideal) (localFilter (V m c main_v0) (V m c main_arg1)) := by
  rw [Value.flushed2_A]
  funext y
  obtain ⟨-, -, -, -, -, -, -, -, e20, e21, e22, e23⟩ := idx_facts t
  have hy0 : (y 0).val < 1 := (y 0).isLt
  have hy1 : (y 1).val < 1 := (y 1).isLt
  have hy2 : (y 2).val < 64 := (y 2).isLt
  have hy3 : (y 3).val < 512 := (y 3).isLt
  have hy : (cfg0.win 2).xinj (grid0.coords t) y = ix4 (⟨(y 0).val, hy0⟩ : Fin 1) (⟨(y 1).val, hy1⟩ : Fin 1) (⟨(y 2).val, hy2⟩ : Fin 64) (⟨(y 3).val, hy3⟩ : Fin 512) :=
    funext fun a => Fin.ext (by match a with | ⟨0, _⟩ => rfl | ⟨1, _⟩ => rfl | ⟨2, _⟩ => rfl | ⟨3, _⟩ => rfl)
  -- the pixel of the result array under `y`: batch entry, row and column
  have hb : ((((cfg0.win 2).blk t).view.emb y) 0).val = (grid0.coords t 0).val := by
    show win0_2.index t (0 : Fin 4) * 1 + 1 * (y 0).val = _; omega
  have hh : ((((cfg0.win 2).blk t).view.emb y) 2).val = 64 * (grid0.coords t 1).val + (y 2).val := by
    show win0_2.index t (2 : Fin 4) * 64 + 1 * (y 2).val = _; omega
  have hw : ((((cfg0.win 2).blk t).view.emb y) 3).val = (y 3).val := by
    show win0_2.index t (3 : Fin 4) * 512 + 1 * (y 3).val = _; omega
  show out0_A_2 (F := Ideal) c (grid0.coords t) (ms0_0 t) (hs0_0 t) (ms0_1 t) (hs0_1 t) (ms0_2 t) (hs0_2 t) (iblk m c 0 t) (iblk m c 1 t)
      ((cfg0.win 2).xinj (grid0.coords t) y) = localFilter (V m c main_v0) (V m c main_arg1) (((cfg0.win 2).blk t).view.emb y)
  rw [hy, Tile.tile_apply, sum_range_taps]
  unfold localFilter
  refine Finset.sum_congr rfl fun k _ => ?_
  rw [window_term m c t k ⟨(y 2).val, hy2⟩ ⟨(y 3).val, hy3⟩ ((((cfg0.win 2).blk t).view.emb y) 0) ((((cfg0.win 2).blk t).view.emb y) 2)
      ((((cfg0.win 2).blk t).view.emb y) 3) hb hh hw,
    weight_term m c t k ⟨(y 2).val, hy2⟩ ⟨(y 3).val, hy3⟩ ((((cfg0.win 2).blk t).view.emb y) 0) ((((cfg0.win 2).blk t).view.emb y) 2)
      ((((cfg0.win 2).blk t).view.emb y) 3) hb hh hw]

/-- An index of the result array is in point `t`'s block iff each coordinate is in the block's range on its axis. -/
theorem mem_blk (t : Fin cfg0.N) (i : S4x1x512x512.Idx) :
    i ∈ ((cfg0.win 2).blk t).view.set ↔ ∀ a : Fin 4, win0_2.index t a * S1x1x64x512.size a ≤ (i a).val ∧ (i a).val < win0_2.index t a * S1x1x64x512.size a + S1x1x64x512.size a := by
  show i ∈ ((View.whole main_v1).slice (win0_2.rect t)).set ↔ _
  rw [View.set_slice_whole, Rect.mem_set_unit]
  exact Iff.rfl

/-- Every index of the result array is in some point's block: batch entry `i 0`, row tile `i 2 / 64`. -/
theorem cover (i : S4x1x512x512.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 512 := (i 2).isLt
  have h3 : (i 3).val < 512 := (i 3).isLt
  obtain ⟨t, ht⟩ := idx_onto ⟨(i 0).val, h0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- THE RESULT ARRAY after the run: the local filter of the padded image and the weights as the region finds them. -/
theorem final (c : Dev nD) : (dats m 0 c).arrAt 2 cfg0.N = localFilter (V m c main_v0) (V m c main_arg1) :=
  (dats m 0 c).arrAt_eq_of_cover 2 (localFilter (V m c main_v0) (V m c main_arg1)) (fun t _ => flushed_eq m c t) cover

/-- The padded image as the region finds it: the host's zero padding, two entries on each side of the two spatial
    axes, of the image argument (the padding value is the integer zero converted to a float). -/
theorem padded_eq (c : Dev nD) :
    (V m c main_v0 : S4x3x516x516.Idx → EReal)
      = pad S4x3x516x516 ![0, 0, 2, 2] ![0, 0, 2, 2] ![0, 0, 0, 0] (m ((c : Thread nD τ).loc main_arg0))
          (sitofp (F := Ideal) .f32 (constantI S_ 32 0#32)) pads_S4x3x512x512_S4x3x516x516_000_000_220_220 h_S_ := by
  dsimp only [Gen.V]
  simp only [Gen.hostOps0, Gen.hostOps0_1, List.flatten_cons, List.flatten_nil, List.append_nil, List.cons_append, List.nil_append]
  after_results
  rfl

/-- The frame run re-posted: the result array at the local filter of the zero-padded image argument and the weights
    argument, the arguments unchanged. -/
theorem run : θ_run defs (onTc (τ := τ) (main (F := Ideal))) ⟨m, fun _ => 0, ρ⟩ fun r => ∀ c : Dev nD,
      r.2.mem ((c : Thread nD τ).loc main_v1)
        = localFilter (pad S4x3x516x516 ![0, 0, 2, 2] ![0, 0, 2, 2] ![0, 0, 0, 0] (m ((c : Thread nD τ).loc main_arg0))
            (sitofp (F := Ideal) .f32 (constantI S_ 32 0#32)) pads_S4x3x512x512_S4x3x516x516_000_000_220_220 h_S_)
          (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [padded_eq, V_main_arg1])), (h c).2⟩)
    (Value.run_blocks m ρ)

end Cert.KernelIdeal.Result

end
-- ==== Proof.ReferenceValue.lean ====
/-
  The reference. It pads the image with zeros, takes the 25 copies of the padded image moved by (i, j),
  0 ≤ i, j < 5, in the order 5·i + j, stacks them along a new axis after the channel axis (16 of them, then 9,
  then the two stacks end to end), merges that axis with the channel axis — channel `c` and copy `p` become plane
  25·c + p —, multiplies by the weights plane by plane and adds the 75 planes from zero. So plane `k` of the
  merged array at pixel (h, w) is the padded image at channel k / 25, row h + k % 25 / 5, column w + k % 5, and the
  result at a pixel is `0 +` the sum over the 75 taps: the local filter of the padded image.
-/
import proofs.«180676_j55972013802282_1_alg».proof.Proof.Gen.ReferenceIdeal.Read
import proofs.«180676_j55972013802282_1_alg».proof.Proof.LocalFilter
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.LocalFilter
open Idealize.ShloMosaic Idealize.ShloMosaic.TcCoe Idealize.ShloMosaic.ValueIdx Idealize.SL.Sem

section Stack

variable (x0 : (⟨S4x3x512x512, .f32⟩ : BufTy).Contents (Elt Ideal))

set_option hygiene false in
/-- One copy read at an index of a stack's pieces: the copy's two stages (the moved copy, then the new unit axis)
    read at an index, and the two indices of the padded image compared coordinate by coordinate; `r` and `c` are
    the padded row and column the statement names. -/
local macro "stack_close" r:term "," c:term : tactic => `(tactic|
  (simp only [
      val_main_v1_apply, val_main_v2_apply, val_main_v3_apply, val_main_v4_apply, val_main_v5_apply,
      val_main_v6_apply, val_main_v7_apply, val_main_v8_apply, val_main_v9_apply, val_main_v10_apply,
      val_main_v11_apply, val_main_v12_apply, val_main_v13_apply, val_main_v14_apply, val_main_v15_apply,
      val_main_v16_apply, val_main_v17_apply, val_main_v18_apply, val_main_v19_apply, val_main_v20_apply,
      val_main_v21_apply, val_main_v22_apply, val_main_v23_apply, val_main_v24_apply, val_main_v25_apply,
      val_main_v26_apply, val_main_v27_apply, val_main_v28_apply, val_main_v29_apply, val_main_v30_apply,
      val_main_v31_apply, val_main_v32_apply, val_main_v33_apply, val_main_v34_apply, val_main_v35_apply,
      val_main_v36_apply, val_main_v37_apply, val_main_v38_apply, val_main_v39_apply, val_main_v40_apply,
      val_main_v41_apply, val_main_v42_apply, val_main_v43_apply, val_main_v44_apply, val_main_v45_apply,
      val_main_v46_apply, val_main_v47_apply, val_main_v48_apply, val_main_v49_apply, val_main_v50_apply]
   refine congrArg (val_main_v0 (F := Ideal) x0) (funext fun a => Fin.ext ?_)
   match a with
   | ⟨0, _⟩ => rfl
   | ⟨1, _⟩ => rfl
   | ⟨2, _⟩ =>
     first
     | (show ((j 3).val : ℕ) = $r; omega)
     | (show (_ + (j 3).val : ℕ) = $r; omega)
   | ⟨3, _⟩ =>
     first
     | (show ((j 4).val : ℕ) = $c; omega)
     | (show (_ + (j 4).val : ℕ) = $c; omega)))

set_option hygiene false in
/-- Position `k` of a stack of copies joined along the axis after the channel axis is the stack's piece `k`, read at the
    index with the same other coordinates. -/
local macro "stack_piece" t:term "," k:num "," r:term "," c:term : tactic => `(tactic|
  (refine Eq.trans (concatenate_apply_piece (t := $t) (2 : Fin 5) _ _ _ $k ?_ S4x3x1x512x512 _ rfl rfl $k rfl
     (ix5 (j 0) (j 1) (0 : Fin 1) (j 3) (j 4)) (fun b hb => ?_) ?_) ?_
   · simp
   · match b with
     | ⟨0, _⟩ => rfl
     | ⟨1, _⟩ => rfl
     | ⟨2, _⟩ => exact absurd rfl hb
     | ⟨3, _⟩ => rfl
     | ⟨4, _⟩ => rfl
   · show $k + 0 = (j 2).val; omega
   stack_close $r, $c))

set_option hygiene false in
local macro "stack16_piece" k:num : tactic =>
  `(tactic| stack_piece S4x3x16x512x512, $k, ((j 3).val + (j 2).val / 5), ((j 4).val + (j 2).val % 5))

set_option hygiene false in
local macro "stack9_piece" k:num : tactic =>
  `(tactic| stack_piece S4x3x9x512x512, $k, ((j 3).val + ((j 2).val + 16) / 5), ((j 4).val + ((j 2).val + 16) % 5))

set_option maxHeartbeats 2000000 in
/-- THE FIRST STACK, copies 0 … 15, at (b, c, p, h, w): the padded image at (b, c, h + p / 5, w + p % 5). -/
theorem stack16_apply (j : S4x3x16x512x512.Idx) :
    val_main_v51 (F := Ideal) x0 j
      = val_main_v0 (F := Ideal) x0 (ix4 (j 0) (j 1)
          (⟨(j 3).val + (j 2).val / 5, by have h2 : (j 2).val < 16 := (j 2).isLt; have h3 : (j 3).val < 512 := (j 3).isLt; omega⟩ : Fin 516)
          (⟨(j 4).val + (j 2).val % 5, by have h4 : (j 4).val < 512 := (j 4).isLt; omega⟩ : Fin 516)) := by
  have h2 : (j 2).val < 16 := (j 2).isLt
  unfold val_main_v51
  obtain ⟨p, hp⟩ : ∃ p, (j 2).val = p := ⟨_, rfl⟩
  match p, hp with
  | 0, hp => stack16_piece 0
  | 1, hp => stack16_piece 1
  | 2, hp => stack16_piece 2
  | 3, hp => stack16_piece 3
  | 4, hp => stack16_piece 4
  | 5, hp => stack16_piece 5
  | 6, hp => stack16_piece 6
  | 7, hp => stack16_piece 7
  | 8, hp => stack16_piece 8
  | 9, hp => stack16_piece 9
  | 10, hp => stack16_piece 10
  | 11, hp => stack16_piece 11
  | 12, hp => stack16_piece 12
  | 13, hp => stack16_piece 13
  | 14, hp => stack16_piece 14
  | 15, hp => stack16_piece 15
  | p + 16, hp => omega

set_option maxHeartbeats 2000000 in
/-- THE SECOND STACK, copies 16 … 24, at (b, c, p, h, w): the padded image at (b, c, h + (p + 16) / 5, w + (p + 16) % 5). -/
theorem stack9_apply (j : S4x3x9x512x512.Idx) :
    val_main_v52 (F := Ideal) x0 j
      = val_main_v0 (F := Ideal) x0 (ix4 (j 0) (j 1)
          (⟨(j 3).val + ((j 2).val + 16) / 5, by have h2 : (j 2).val < 9 := (j 2).isLt; have h3 : (j 3).val < 512 := (j 3).isLt; omega⟩ : Fin 516)
          (⟨(j 4).val + ((j 2).val + 16) % 5, by have h4 : (j 4).val < 512 := (j 4).isLt; omega⟩ : Fin 516)) := by
  have h2 : (j 2).val < 9 := (j 2).isLt
  unfold val_main_v52
  obtain ⟨p, hp⟩ : ∃ p, (j 2).val = p := ⟨_, rfl⟩
  match p, hp with
  | 0, hp => stack9_piece 0
  | 1, hp => stack9_piece 1
  | 2, hp => stack9_piece 2
  | 3, hp => stack9_piece 3
  | 4, hp => stack9_piece 4
  | 5, hp => stack9_piece 5
  | 6, hp => stack9_piece 6
  | 7, hp => stack9_piece 7
  | 8, hp => stack9_piece 8
  | p + 9, hp => omega

/-- THE STACK of the 25 moved copies, the two stacks end to end, at (b, c, p, h, w): the padded image at
    (b, c, h + p / 5, w + p % 5). -/
theorem stack_apply (j : S4x3x25x512x512.Idx) :
    val_main_v53 (F := Ideal) x0 j
      = val_main_v0 (F := Ideal) x0 (ix4 (j 0) (j 1)
          (⟨(j 3).val + (j 2).val / 5, by have h2 : (j 2).val < 25 := (j 2).isLt; have h3 : (j 3).val < 512 := (j 3).isLt; omega⟩ : Fin 516)
          (⟨(j 4).val + (j 2).val % 5, by have h4 : (j 4).val < 512 := (j 4).isLt; omega⟩ : Fin 516)) := by
  have h2 : (j 2).val < 25 := (j 2).isLt
  unfold val_main_v53
  by_cases hlt : (j 2).val < 16
  · refine Eq.trans (concatenate_pair_apply_left (s₁ := S4x3x16x512x512) (s₂ := S4x3x9x512x512) (2 : Fin 5) _ _ _ j rfl
      (ix5 (j 0) (j 1) (⟨(j 2).val, hlt⟩ : Fin 16) (j 3) (j 4)) (fun b => ?_)) ?_
    · match b with
      | ⟨0, _⟩ => rfl
      | ⟨1, _⟩ => rfl
      | ⟨2, _⟩ => rfl
      | ⟨3, _⟩ => rfl
      | ⟨4, _⟩ => rfl
    rw [stack16_apply]
  · refine Eq.trans (concatenate_pair_apply_right (s₁ := S4x3x16x512x512) (s₂ := S4x3x9x512x512) (2 : Fin 5) _ _ _ j rfl rfl
      (ix5 (j 0) (j 1) (⟨(j 2).val - 16, by omega⟩ : Fin 9) (j 3) (j 4)) (fun b hb => ?_) ?_) ?_
    · match b with
      | ⟨0, _⟩ => rfl
      | ⟨1, _⟩ => rfl
      | ⟨2, _⟩ => exact absurd rfl hb
      | ⟨3, _⟩ => rfl
      | ⟨4, _⟩ => rfl
    · show (j 2).val - 16 + 16 = (j 2).val; omega
    rw [stack9_apply]
    refine congrArg (val_main_v0 (F := Ideal) x0) (funext fun a => Fin.ext ?_)
    match a with
    | ⟨0, _⟩ => rfl
    | ⟨1, _⟩ => rfl
    | ⟨2, _⟩ => show (j 3).val + ((j 2).val - 16 + 16) / 5 = (j 3).val + (j 2).val / 5; omega
    | ⟨3, _⟩ => show (j 4).val + ((j 2).val - 16 + 16) % 5 = (j 4).val + (j 2).val % 5; omega

end Stack

/-- THE REFERENCE'S RESULT is the local filter of the padded image and the weights. -/
theorem reference_eq (x0 : (⟨S4x3x512x512, .f32⟩ : BufTy).Contents (Elt Ideal)) (x1 : (⟨S4x75x512x512, .f32⟩ : BufTy).Contents (Elt Ideal)) :
    val_main_v57 (F := Ideal) x0 x1 = localFilter (val_main_v0 (F := Ideal) x0) x1 := by
  funext i
  have hb : (i 0).val < 4 := (i 0).isLt
  have hh : (i 2).val < 512 := (i 2).isLt
  have hw : (i 3).val < 512 := (i 3).isLt
  rw [val_main_v57_apply, val_main_v56_apply, val_main_cst_apply, Ideal.ofBits_def, Ideal.ofBits_zero_f32, zero_add]
  show _ = ∑ k : Fin 75, _
  refine Finset.sum_congr rfl fun k _ => ?_
  have hk : k.val < 75 := k.isLt
  rw [val_main_v55_apply, val_main_v54_apply, stack_apply]
  show _ * _ = _ * _
  congr 1
  · refine congrArg (val_main_v0 (F := Ideal) x0) (funext fun a => Fin.ext ?_)
    match a with
    | ⟨0, _⟩ => show ((((i 0).val * 75 + k.val) * 512 + (i 2).val) * 512 + (i 3).val) / 19660800 = (i 0).val; omega
    | ⟨1, _⟩ => show ((((i 0).val * 75 + k.val) * 512 + (i 2).val) * 512 + (i 3).val) / 6553600 % 3 = k.val / 25; omega
    | ⟨2, _⟩ =>
      show ((((i 0).val * 75 + k.val) * 512 + (i 2).val) * 512 + (i 3).val) / 512 % 512
          + ((((i 0).val * 75 + k.val) * 512 + (i 2).val) * 512 + (i 3).val) / 262144 % 25 / 5 = (i 2).val + k.val % 25 / 5
      omega
    | ⟨3, _⟩ =>
      show ((((i 0).val * 75 + k.val) * 512 + (i 2).val) * 512 + (i 3).val) % 512
          + ((((i 0).val * 75 + k.val) * 512 + (i 2).val) * 512 + (i 3).val) / 262144 % 25 % 5 = (i 3).val + k.val % 5
      omega
  · refine congrArg x1 (funext fun a => Fin.ext ?_)
    match a with
    | ⟨0, _⟩ => rfl
    | ⟨1, _⟩ => rfl
    | ⟨2, _⟩ => rfl
    | ⟨3, _⟩ => rfl

end Cert.ReferenceIdeal.RefValue

end
-- ==== Proof.lean ====
/- The proof of `Cert.Claim`: a per-pixel local filter against its jnp reference, equal over the extended reals.
   Each result pixel is the sum, over the 75 taps of a 3-channel 5 × 5 window of the zero-padded image, of the
   window's entry times that pixel's own weight for the tap. The kernel adds the 75 products one after the other,
   from zero, tile of 64 rows by tile; the reference stacks the 25 moved copies of the padded image per channel,
   multiplies by the weights and sums the 75 planes at once. Both are the one function `localFilter` of the padded
   image and the weights (Proof/LocalFilter.lean): the kernel's array by Proof/TileValue.lean (a tile at a pixel) and
   Proof/ResultArray.lean (the 32 tiles fill the array), the reference's by Proof/ReferenceValue.lean. Addition of
   extended reals is commutative and associative, so the two orders of summation agree with no appeal to the
   precondition. The three frames are the generated runs; the idealization rewrote nothing, so `preserves` is `True`. -/
import proofs.«180676_j55972013802282_1_alg».proof.Defs
import proofs.«180676_j55972013802282_1_alg».proof.Proof.Gen.Kernel
import proofs.«180676_j55972013802282_1_alg».proof.Proof.Gen.Kernel.Skeleton
import proofs.«180676_j55972013802282_1_alg».proof.Proof.Gen.Kernel.Launch
import proofs.«180676_j55972013802282_1_alg».proof.Proof.Gen.Kernel.Points
import proofs.«180676_j55972013802282_1_alg».proof.Proof.Gen.Kernel.Frame
import proofs.«180676_j55972013802282_1_alg».proof.Proof.Gen.KernelIdeal
import proofs.«180676_j55972013802282_1_alg».proof.Proof.Gen.KernelIdeal.Skeleton
import proofs.«180676_j55972013802282_1_alg».proof.Proof.Gen.KernelIdeal.Launch
import proofs.«180676_j55972013802282_1_alg».proof.Proof.Gen.KernelIdeal.Points
import proofs.«180676_j55972013802282_1_alg».proof.Proof.Gen.KernelIdeal.Frame
import proofs.«180676_j55972013802282_1_alg».proof.Proof.Gen.ReferenceIdeal
import proofs.«180676_j55972013802282_1_alg».proof.Proof.Gen.Pre_finite_inputs
import proofs.«180676_j55972013802282_1_alg».proof.Proof.Gen.KernelIdeal.Value
import proofs.«180676_j55972013802282_1_alg».proof.Proof.Gen.ReferenceIdeal.Run
import proofs.«180676_j55972013802282_1_alg».proof.Proof.Gen.ReferenceIdeal.Read
import proofs.«180676_j55972013802282_1_alg».proof.Proof.ResultArray
import proofs.«180676_j55972013802282_1_alg».proof.Proof.ReferenceValue
import Idealize.ShloMosaic.Adequacy
import Idealize.ShloMosaic.Init

noncomputable section

namespace Cert.Proof

open Idealize.ShloMosaic Idealize.SL.Sem Cert.Kernel

/-- The kernel as printed runs, and leaves its arguments as they were: the generated frame. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference runs: its generated run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the image and the weights both programs end at the local filter of the zero-padded
    image and the weights: the kernel's result array (`Result.run`) and the reference's (`RefValue.reference_eq` over its
    generated run) are that one function of the same two arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefValue.reference_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
